-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_arg15 : FVec F S1024x1024 .f32) (main_arg16 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩

abbrev nBuf : Space → Nat
  | .hbm => 31
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S4096x1024, .f32⟩
  | .hbm, ⟨18, _⟩ => ⟨S4096x1024, .f32⟩
  | .hbm, ⟨19, _⟩ => ⟨S4096, .f32⟩
  | .hbm, ⟨20, _⟩ => ⟨S1024x4096, .f32⟩
  | .hbm, ⟨21, _⟩ => ⟨S1024x4096, .bf16⟩
  | .hbm, ⟨22, _⟩ => ⟨S1024x4096, .f32⟩
  | .hbm, ⟨23, _⟩ => ⟨S1024x4096, .bf16⟩
  | .hbm, ⟨24, _⟩ => ⟨S1024x1024, .f32⟩
  | .hbm, ⟨25, _⟩ => ⟨S1024x1024, .bf16⟩
  | .hbm, ⟨26, _⟩ => ⟨S1x4096, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1024x1024, .bf16⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bitsLt_bf16_f32 : FTy.bits .bf16 < FTy.bits .f32
  transposes_S1024x1024_S1024x1024_1_0 : S1024x1024.Transposes [1, 0] S1024x1024
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S4096x1024.size a
  hwx0_8 : ∀ i : grid0.Coords, EltTy.bits .f32 = 32 ∨ (Rect.block (s := S4096x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .f32 = 32 ∨ (Rect.block (s := S4096x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_2) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S4096x1024, .f32⟩
  | .hbm, ⟨18, _⟩ => ⟨S4096x1024, .f32⟩
  | .hbm, ⟨19, _⟩ => ⟨S4096, .f32⟩
  | .hbm, ⟨20, _⟩ => ⟨S1024x4096, .f32⟩
  | .hbm, ⟨21, _⟩ => ⟨S4096x4096, .f32⟩
  | .hbm, ⟨22, _⟩ => ⟨S1024x4096, .f32⟩
  | .hbm, ⟨23, _⟩ => ⟨S4096x4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []
  dot_S4096x1024_S1024x1024_S4096x1024_1_0_0_1_n_n_wf : DotDims.WF S4096x1024 S1024x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.CellFrame.lean ====
/-
  The LSTM-cell program runs to the end, faults nowhere and leaves its seventeen argument arrays as they were, at any
  float instance (the program's text is read at whichever instance the claim names).

  The program is eleven host operations and one kernel region. The host operations stack the four gates' input
  weights, hidden weights and biases along the output axis (three concatenations), transpose the two stacked weight
  matrices and the output projection, change their format, and view the stacked bias and the output bias as one-row
  matrices; each writes a buffer of its own, so every argument array reaches the region as launched (V_main_arg…).
  The region walks the batch in 32 blocks of 128 rows. At a block it is handed the block's rows of x, h and c
  (windows 0, 1, 2), the whole of the two stacked transposed weight matrices, the stacked bias, the transposed
  output projection and the output bias (windows 3 to 7, whose block index never moves, so they are fetched once
  and found in place afterwards), and it stores three whole blocks: the new hidden state, the new cell state and
  the output (windows 8, 9, 10). What each output's staging buffer holds after the body is therefore ONE store's
  payload read through the whole-block rectangle (cellHidden, cellState, cellOut), a function of the eight
  input blocks alone: the body also loads each output buffer before it stores into it, and uses none of those words.
  With that proof data the library's launch theorem for one region after a stretch of host operations gives the run
  (run_main), whose post names every window's array after the region; the argument arrays among them are inputs, so
  they end at their entry contents, and the arguments no window stages are untouched by the region (frame).
-/
import proofs.«104912_j37245956391346_1_alg».proof.Proof.Gen.Kernel.Launch
import proofs.«104912_j37245956391346_1_alg».proof.Proof.Gen.Kernel.Skeleton
import proofs.«104912_j37245956391346_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers when the region is entered: the launch memory after the eleven host operations. -/
abbrev V (c : Dev nD) (b : Ref sig .tc) : Buf (Elt F) ((c : Thread nD τ).loc b) := StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes reaches the region as launched. Each host operation writes exactly its own
    result buffer (main_v0 … main_v10), and an argument is none of those. -/
theorem V_of_not_written (c : Dev nD) (b : Ref sig .tc)
    (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

local macro "arg_not_written" : tactic => `(tactic| (
  refine List.forall_iff_forall_mem.mp ?_
  simp only [hostOps0, List.Forall, StableHlo.nary_writes, StableHlo.unary_writes, StableHlo.reshape_writes, Finset.mem_singleton]
  repeat' apply And.intro
  all_goals exact StableHlo.devRef_ne_of_ne (by decide)))

theorem V_main_arg0 (c : Dev nD) : V m c main_arg0 = m ((c : Thread nD τ).loc main_arg0) := V_of_not_written m c _ (by arg_not_written)
theorem V_main_arg1 (c : Dev nD) : V m c main_arg1 = m ((c : Thread nD τ).loc main_arg1) := V_of_not_written m c _ (by arg_not_written)
theorem V_main_arg2 (c : Dev nD) : V m c main_arg2 = m ((c : Thread nD τ).loc main_arg2) := V_of_not_written m c _ (by arg_not_written)
theorem V_main_arg3 (c : Dev nD) : V m c main_arg3 = m ((c : Thread nD τ).loc main_arg3) := V_of_not_written m c _ (by arg_not_written)
theorem V_main_arg4 (c : Dev nD) : V m c main_arg4 = m ((c : Thread nD τ).loc main_arg4) := V_of_not_written m c _ (by arg_not_written)
theorem V_main_arg5 (c : Dev nD) : V m c main_arg5 = m ((c : Thread nD τ).loc main_arg5) := V_of_not_written m c _ (by arg_not_written)
theorem V_main_arg6 (c : Dev nD) : V m c main_arg6 = m ((c : Thread nD τ).loc main_arg6) := V_of_not_written m c _ (by arg_not_written)
theorem V_main_arg7 (c : Dev nD) : V m c main_arg7 = m ((c : Thread nD τ).loc main_arg7) := V_of_not_written m c _ (by arg_not_written)
theorem V_main_arg8 (c : Dev nD) : V m c main_arg8 = m ((c : Thread nD τ).loc main_arg8) := V_of_not_written m c _ (by arg_not_written)
theorem V_main_arg9 (c : Dev nD) : V m c main_arg9 = m ((c : Thread nD τ).loc main_arg9) := V_of_not_written m c _ (by arg_not_written)
theorem V_main_arg10 (c : Dev nD) : V m c main_arg10 = m ((c : Thread nD τ).loc main_arg10) := V_of_not_written m c _ (by arg_not_written)
theorem V_main_arg11 (c : Dev nD) : V m c main_arg11 = m ((c : Thread nD τ).loc main_arg11) := V_of_not_written m c _ (by arg_not_written)
theorem V_main_arg12 (c : Dev nD) : V m c main_arg12 = m ((c : Thread nD τ).loc main_arg12) := V_of_not_written m c _ (by arg_not_written)
theorem V_main_arg13 (c : Dev nD) : V m c main_arg13 = m ((c : Thread nD τ).loc main_arg13) := V_of_not_written m c _ (by arg_not_written)
theorem V_main_arg14 (c : Dev nD) : V m c main_arg14 = m ((c : Thread nD τ).loc main_arg14) := V_of_not_written m c _ (by arg_not_written)
theorem V_main_arg15 (c : Dev nD) : V m c main_arg15 = m ((c : Thread nD τ).loc main_arg15) := V_of_not_written m c _ (by arg_not_written)
theorem V_main_arg16 (c : Dev nD) : V m c main_arg16 = m ((c : Thread nD τ).loc main_arg16) := V_of_not_written m c _ (by arg_not_written)

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block at every point, fetched there or not:
    where it is not fetched the block index has not moved since the point before, so the block found is this point's.
    Stated for any proof data whose array is the region-entry one and whose body leaves the block; one statement per
    input window (0, 1, 2 move with the batch block; 3 to 7 never move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- For any proof data whose arrays are the region-entry contents, a run ending with every window's array at what
    the proof data computes and every other buffer as the region found it leaves the seventeen arguments as launched:
    x, h and c are the arrays of input windows (an input's array ends at its entry contents), the fourteen weight
    and bias arguments are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## What the body leaves in the three output buffers -/

abbrev rRows : Rect S128x1024 := Rect.unit (s := S128x1024) ![0, 0] S128x1024.size inb_S128x1024_S128x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0
abbrev rProj : Rect S1024x1024 := Rect.unit (s := S1024x1024) ![0, 0] S1024x1024.size inb_S1024x1024_S1024x1024_0_0
abbrev rOutBias : Rect S1x1024 := Rect.unit (s := S1x1024) ![0, 0] S1x1024.size inb_S1x1024_S1x1024_0_0

/-- The new hidden state's buffer (window 8) after the body: one whole-block store of o · tanh(c′). -/
def cellHidden (x0 x1 x2 : Vec F S128x1024 .f32) (x3 x4 : Vec F S1024x4096 .bf16) (x5 : Vec F S1x4096 .f32) : Vec F S128x1024 .f32 :=
  View.canon [⟨rRows, k0_pay4 (View.ld x0 rRows) (View.ld x1 rRows) (View.ld x3 rWide) (View.ld x4 rWide) (View.ld x5 rBias) (View.ld x2 rRows)⟩]

/-- The new cell state's buffer (window 9) after the body: one whole-block store of c′ = f · c + i · g. -/
def cellState (x0 x1 x2 : Vec F S128x1024 .f32) (x3 x4 : Vec F S1024x4096 .bf16) (x5 : Vec F S1x4096 .f32) : Vec F S128x1024 .f32 :=
  View.canon [⟨rRows, k0_pay3 (View.ld x0 rRows) (View.ld x1 rRows) (View.ld x3 rWide) (View.ld x4 rWide) (View.ld x5 rBias) (View.ld x2 rRows)⟩]

/-- The output's buffer (window 10) after the body: one whole-block store of h′ · Woutᵀ + bout. -/
def cellOut (x0 x1 x2 : Vec F S128x1024 .f32) (x3 x4 : Vec F S1024x4096 .bf16) (x5 : Vec F S1x4096 .f32) (x6 : Vec F S1024x1024 .bf16) (x7 : Vec F S1x1024 .f32) : Vec F S128x1024 .f32 :=
  View.canon [⟨rRows, k0_pay1 (k0_pay5 (View.ld x0 rRows) (View.ld x1 rRows) (View.ld x3 rWide) (View.ld x4 rWide) (View.ld x5 rBias) (View.ld x2 rRows) (View.ld x6 rProj)) (View.ld x7 rOutBias)⟩]

/-- One store through the whole-block rectangle covers the block. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1000000 in
/-- The kernel body on whole staging memrefs, the eight inputs' at read contents x0 … x7 and the three outputs' at
    anything, runs to the continuation holding the inputs' as they were and the outputs' at cellHidden,
    cellState and cellOut of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S128x1024 .f32) (harg9 : arg9.IsWhole) (arg10 : Memref sig .tc .vmem S128x1024 .f32) (harg10 : arg10.IsWhole)
    (arg11 : Memref sig .tc .vmem S128x1024 .f32) (harg11 : arg11.IsWhole)
    (x0 x1 x2 : Vec F S128x1024 .f32) (x3 x4 : Vec F S1024x4096 .bf16) (x5 : Vec F S1x4096 .f32) (x6 : Vec F S1024x1024 .bf16) (x7 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (cellHidden x0 x1 x2 x3 x4 x5)
            ∗ owns (c : Thread nD τ) arg10 fullShare (cellState x0 x1 x2 x3 x4 x5)
            ∗ owns (c : Thread nD τ) arg11 fullShare (cellOut x0 x1 x2 x3 x4 x5 x6 x7)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_rows _)
  isplitl [H9]
  · iexists _; isplitr
    swap; · iexact H9
    ipureintro
    exact View.read_writes_eq_canon _ _ _ (cover_rows _)
  iexists _; isplitr
  swap; · iexact H10
  ipureintro
  exact View.read_writes_eq_canon _ _ _ (cover_rows _)

/-! ## The proof data -/

/-- On core c: the arrays as the region finds them; after the body at point t each input's buffer still at its
    block and the three outputs' at cellHidden, cellState, cellOut of the eight input blocks; the region's
    invariant is the part of the core the body never touches; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => cellHidden (iblk m c 0 t) (iblk m c 1 t) (iblk m c 2 t) (iblk m c 3 t) (iblk m c 4 t) (iblk m c 5 t)
    | ⟨9, _⟩ => cellState (iblk m c 0 t) (iblk m c 1 t) (iblk m c 2 t) (iblk m c 3 t) (iblk m c 4 t) (iblk m c 5 t)
    | ⟨10, _⟩ => cellOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = cellHidden (iblk m c 0 t) (iblk m c 1 t) (iblk m c 2 t) (iblk m c 3 t) (iblk m c 4 t) (iblk m c 5 t) := by dsimp only [dats]
theorem after0_9 (c : Dev nD) (t : Fin cfg0.N) : (dats m 0 c).after 9 t = cellState (iblk m c 0 t) (iblk m c 1 t) (iblk m c 2 t) (iblk m c 3 t) (iblk m c 4 t) (iblk m c 5 t) := by dsimp only [dats]
theorem after0_10 (c : Dev nD) (t : Fin cfg0.N) : (dats m 0 c).after 10 t = cellOut (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every window's array at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Cell

end
-- ==== Proof.CellFrameIdeal.lean ====
/-
  The LSTM-cell program runs to the end, faults nowhere and leaves its seventeen argument arrays as they were, at any
  float instance (the program's text is read at whichever instance the claim names).

  The program is eleven host operations and one kernel region. The host operations stack the four gates' input
  weights, hidden weights and biases along the output axis (three concatenations), transpose the two stacked weight
  matrices and the output projection, change their format, and view the stacked bias and the output bias as one-row
  matrices; each writes a buffer of its own, so every argument array reaches the region as launched (V_main_arg…).
  The region walks the batch in 32 blocks of 128 rows. At a block it is handed the block's rows of x, h and c
  (windows 0, 1, 2), the whole of the two stacked transposed weight matrices, the stacked bias, the transposed
  output projection and the output bias (windows 3 to 7, whose block index never moves, so they are fetched once
  and found in place afterwards), and it stores three whole blocks: the new hidden state, the new cell state and
  the output (windows 8, 9, 10). What each output's staging buffer holds after the body is therefore ONE store's
  payload read through the whole-block rectangle (cellHidden, cellState, cellOut), a function of the eight
  input blocks alone: the body also loads each output buffer before it stores into it, and uses none of those words.
  With that proof data the library's launch theorem for one region after a stretch of host operations gives the run
  (run_main), whose post names every window's array after the region; the argument arrays among them are inputs, so
  they end at their entry contents, and the arguments no window stages are untouched by the region (frame).
-/
import proofs.«104912_j37245956391346_1_alg».proof.Proof.Gen.KernelIdeal.Launch
import proofs.«104912_j37245956391346_1_alg».proof.Proof.Gen.KernelIdeal.Skeleton
import proofs.«104912_j37245956391346_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers when the region is entered: the launch memory after the eleven host operations. -/
abbrev V (c : Dev nD) (b : Ref sig .tc) : Buf (Elt F) ((c : Thread nD τ).loc b) := StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes reaches the region as launched. Each host operation writes exactly its own
    result buffer (main_v0 … main_v10), and an argument is none of those. -/
theorem V_of_not_written (c : Dev nD) (b : Ref sig .tc)
    (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

local macro "arg_not_written" : tactic => `(tactic| (
  refine List.forall_iff_forall_mem.mp ?_
  simp only [hostOps0, List.Forall, StableHlo.nary_writes, StableHlo.unary_writes, StableHlo.reshape_writes, Finset.mem_singleton]
  repeat' apply And.intro
  all_goals exact StableHlo.devRef_ne_of_ne (by decide)))

theorem V_main_arg0 (c : Dev nD) : V m c main_arg0 = m ((c : Thread nD τ).loc main_arg0) := V_of_not_written m c _ (by arg_not_written)
theorem V_main_arg1 (c : Dev nD) : V m c main_arg1 = m ((c : Thread nD τ).loc main_arg1) := V_of_not_written m c _ (by arg_not_written)
theorem V_main_arg2 (c : Dev nD) : V m c main_arg2 = m ((c : Thread nD τ).loc main_arg2) := V_of_not_written m c _ (by arg_not_written)
theorem V_main_arg3 (c : Dev nD) : V m c main_arg3 = m ((c : Thread nD τ).loc main_arg3) := V_of_not_written m c _ (by arg_not_written)
theorem V_main_arg4 (c : Dev nD) : V m c main_arg4 = m ((c : Thread nD τ).loc main_arg4) := V_of_not_written m c _ (by arg_not_written)
theorem V_main_arg5 (c : Dev nD) : V m c main_arg5 = m ((c : Thread nD τ).loc main_arg5) := V_of_not_written m c _ (by arg_not_written)
theorem V_main_arg6 (c : Dev nD) : V m c main_arg6 = m ((c : Thread nD τ).loc main_arg6) := V_of_not_written m c _ (by arg_not_written)
theorem V_main_arg7 (c : Dev nD) : V m c main_arg7 = m ((c : Thread nD τ).loc main_arg7) := V_of_not_written m c _ (by arg_not_written)
theorem V_main_arg8 (c : Dev nD) : V m c main_arg8 = m ((c : Thread nD τ).loc main_arg8) := V_of_not_written m c _ (by arg_not_written)
theorem V_main_arg9 (c : Dev nD) : V m c main_arg9 = m ((c : Thread nD τ).loc main_arg9) := V_of_not_written m c _ (by arg_not_written)
theorem V_main_arg10 (c : Dev nD) : V m c main_arg10 = m ((c : Thread nD τ).loc main_arg10) := V_of_not_written m c _ (by arg_not_written)
theorem V_main_arg11 (c : Dev nD) : V m c main_arg11 = m ((c : Thread nD τ).loc main_arg11) := V_of_not_written m c _ (by arg_not_written)
theorem V_main_arg12 (c : Dev nD) : V m c main_arg12 = m ((c : Thread nD τ).loc main_arg12) := V_of_not_written m c _ (by arg_not_written)
theorem V_main_arg13 (c : Dev nD) : V m c main_arg13 = m ((c : Thread nD τ).loc main_arg13) := V_of_not_written m c _ (by arg_not_written)
theorem V_main_arg14 (c : Dev nD) : V m c main_arg14 = m ((c : Thread nD τ).loc main_arg14) := V_of_not_written m c _ (by arg_not_written)
theorem V_main_arg15 (c : Dev nD) : V m c main_arg15 = m ((c : Thread nD τ).loc main_arg15) := V_of_not_written m c _ (by arg_not_written)
theorem V_main_arg16 (c : Dev nD) : V m c main_arg16 = m ((c : Thread nD τ).loc main_arg16) := V_of_not_written m c _ (by arg_not_written)

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block at every point, fetched there or not:
    where it is not fetched the block index has not moved since the point before, so the block found is this point's.
    Stated for any proof data whose array is the region-entry one and whose body leaves the block; one statement per
    input window (0, 1, 2 move with the batch block; 3 to 7 never move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- For any proof data whose arrays are the region-entry contents, a run ending with every window's array at what
    the proof data computes and every other buffer as the region found it leaves the seventeen arguments as launched:
    x, h and c are the arrays of input windows (an input's array ends at its entry contents), the fourteen weight
    and bias arguments are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## What the body leaves in the three output buffers -/

abbrev rRows : Rect S128x1024 := Rect.unit (s := S128x1024) ![0, 0] S128x1024.size inb_S128x1024_S128x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0
abbrev rProj : Rect S1024x1024 := Rect.unit (s := S1024x1024) ![0, 0] S1024x1024.size inb_S1024x1024_S1024x1024_0_0
abbrev rOutBias : Rect S1x1024 := Rect.unit (s := S1x1024) ![0, 0] S1x1024.size inb_S1x1024_S1x1024_0_0

/-- The new hidden state's buffer (window 8) after the body: one whole-block store of o · tanh(c′). -/
def cellHidden (x0 x1 x2 : Vec F S128x1024 .f32) (x3 x4 : Vec F S1024x4096 .bf16) (x5 : Vec F S1x4096 .f32) : Vec F S128x1024 .f32 :=
  View.canon [⟨rRows, k0_pay4 (View.ld x0 rRows) (View.ld x1 rRows) (View.ld x3 rWide) (View.ld x4 rWide) (View.ld x5 rBias) (View.ld x2 rRows)⟩]

/-- The new cell state's buffer (window 9) after the body: one whole-block store of c′ = f · c + i · g. -/
def cellState (x0 x1 x2 : Vec F S128x1024 .f32) (x3 x4 : Vec F S1024x4096 .bf16) (x5 : Vec F S1x4096 .f32) : Vec F S128x1024 .f32 :=
  View.canon [⟨rRows, k0_pay3 (View.ld x0 rRows) (View.ld x1 rRows) (View.ld x3 rWide) (View.ld x4 rWide) (View.ld x5 rBias) (View.ld x2 rRows)⟩]

/-- The output's buffer (window 10) after the body: one whole-block store of h′ · Woutᵀ + bout. -/
def cellOut (x0 x1 x2 : Vec F S128x1024 .f32) (x3 x4 : Vec F S1024x4096 .bf16) (x5 : Vec F S1x4096 .f32) (x6 : Vec F S1024x1024 .bf16) (x7 : Vec F S1x1024 .f32) : Vec F S128x1024 .f32 :=
  View.canon [⟨rRows, k0_pay1 (k0_pay5 (View.ld x0 rRows) (View.ld x1 rRows) (View.ld x3 rWide) (View.ld x4 rWide) (View.ld x5 rBias) (View.ld x2 rRows) (View.ld x6 rProj)) (View.ld x7 rOutBias)⟩]

/-- One store through the whole-block rectangle covers the block. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1000000 in
/-- The kernel body on whole staging memrefs, the eight inputs' at read contents x0 … x7 and the three outputs' at
    anything, runs to the continuation holding the inputs' as they were and the outputs' at cellHidden,
    cellState and cellOut of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S128x1024 .f32) (harg9 : arg9.IsWhole) (arg10 : Memref sig .tc .vmem S128x1024 .f32) (harg10 : arg10.IsWhole)
    (arg11 : Memref sig .tc .vmem S128x1024 .f32) (harg11 : arg11.IsWhole)
    (x0 x1 x2 : Vec F S128x1024 .f32) (x3 x4 : Vec F S1024x4096 .bf16) (x5 : Vec F S1x4096 .f32) (x6 : Vec F S1024x1024 .bf16) (x7 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (cellHidden x0 x1 x2 x3 x4 x5)
            ∗ owns (c : Thread nD τ) arg10 fullShare (cellState x0 x1 x2 x3 x4 x5)
            ∗ owns (c : Thread nD τ) arg11 fullShare (cellOut x0 x1 x2 x3 x4 x5 x6 x7)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_rows _)
  isplitl [H9]
  · iexists _; isplitr
    swap; · iexact H9
    ipureintro
    exact View.read_writes_eq_canon _ _ _ (cover_rows _)
  iexists _; isplitr
  swap; · iexact H10
  ipureintro
  exact View.read_writes_eq_canon _ _ _ (cover_rows _)

/-! ## The proof data -/

/-- On core c: the arrays as the region finds them; after the body at point t each input's buffer still at its
    block and the three outputs' at cellHidden, cellState, cellOut of the eight input blocks; the region's
    invariant is the part of the core the body never touches; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => cellHidden (iblk m c 0 t) (iblk m c 1 t) (iblk m c 2 t) (iblk m c 3 t) (iblk m c 4 t) (iblk m c 5 t)
    | ⟨9, _⟩ => cellState (iblk m c 0 t) (iblk m c 1 t) (iblk m c 2 t) (iblk m c 3 t) (iblk m c 4 t) (iblk m c 5 t)
    | ⟨10, _⟩ => cellOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = cellHidden (iblk m c 0 t) (iblk m c 1 t) (iblk m c 2 t) (iblk m c 3 t) (iblk m c 4 t) (iblk m c 5 t) := by dsimp only [dats]
theorem after0_9 (c : Dev nD) (t : Fin cfg0.N) : (dats m 0 c).after 9 t = cellState (iblk m c 0 t) (iblk m c 1 t) (iblk m c 2 t) (iblk m c 3 t) (iblk m c 4 t) (iblk m c 5 t) := by dsimp only [dats]
theorem after0_10 (c : Dev nD) (t : Fin cfg0.N) : (dats m 0 c).after 10 t = cellOut (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every window's array at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Cell

end
-- ==== Proof.CellSpec.lean ====
/-
  One step of an LSTM cell, row by row, on the extended reals.

  A row of the batch is three vectors of 1024 entries: the input x, the hidden state h and the cell state c. The four
  gates' weights are stacked along the output axis and transposed: WxT and WhT have 1024 rows (the contracted axis)
  and 4096 columns (forget, input, output, candidate: 1024 columns each), b has 4096 entries. The pre-activation of
  column n is

      gate n = (Σ_k x_k · WxT(k, n) + Σ_k h_k · WhT(k, n)) + b_n,

  and with σ the logistic function 1 / (1 + e^(-z))

      c'_j = σ(gate j) · c_j + σ(gate (1024 + j)) · tanh(gate (3072 + j)),
      h'_j = σ(gate (2048 + j)) · tanh(c'_j),
      out_n = Σ_k h'_k · WoT(k, n) + bo_n,

  WoT the transposed output projection (1024 by 1024) and bo its bias. Every sum is one finite sum over the
  contracted axis and every product keeps the order of its factors, so the kernel (which computes a block of 128
  rows at a time) and the reference (which computes all 4096 rows at once) produce these same terms entry by
  entry: no law of arithmetic beyond the definitions is used, and no finiteness.
-/
import Idealize.ShloMosaic.PureOps.Ideal
import Idealize.ShloMosaic.Lib.ValueIdx
import Idealize.ShloMosaic.Lib.IdealHost

noncomputable section

namespace Cert.CellSpec

open Idealize.ShloMosaic Idealize.ShloMosaic.ValueIdx

/-- The transposed stacked weights: contracted axis by gate column. -/
abbrev SW : Shape := ⟨2, ![1024, 4096]⟩
/-- The transposed output projection. -/
abbrev SP : Shape := ⟨2, ![1024, 1024]⟩

/-- Column j of the forget gate, of the input gate, of the output gate and of the candidate, in the stacked axis. -/
abbrev colF (j : Fin 1024) : Fin 4096 := ⟨j.val, by have := j.isLt; omega⟩
abbrev colI (j : Fin 1024) : Fin 4096 := ⟨1024 + j.val, by have := j.isLt; omega⟩
abbrev colO (j : Fin 1024) : Fin 4096 := ⟨2048 + j.val, by have := j.isLt; omega⟩
abbrev colG (j : Fin 1024) : Fin 4096 := ⟨3072 + j.val, by have := j.isLt; omega⟩

/-- The pre-activation of gate column n for one row. -/
def gate (x h : Fin 1024 → EReal) (WxT WhT : SW.Idx → EReal) (b : Fin 4096 → EReal) (n : Fin 4096) : EReal :=
  (∑ k : Fin 1024, x k * WxT (ix2 k n) + ∑ k : Fin 1024, h k * WhT (ix2 k n)) + b n

/-- The new cell state of one row. -/
def cellRow (x h c : Fin 1024 → EReal) (WxT WhT : SW.Idx → EReal) (b : Fin 4096 → EReal) (j : Fin 1024) : EReal :=
  Ideal.logistic (gate x h WxT WhT b (colF j)) * c j
    + Ideal.logistic (gate x h WxT WhT b (colI j)) * Ideal.tanh (gate x h WxT WhT b (colG j))

/-- The new hidden state of one row. -/
def hiddenRow (x h c : Fin 1024 → EReal) (WxT WhT : SW.Idx → EReal) (b : Fin 4096 → EReal) (j : Fin 1024) : EReal :=
  Ideal.logistic (gate x h WxT WhT b (colO j)) * Ideal.tanh (cellRow x h c WxT WhT b j)

/-- The output of one row. -/
def outRow (x h c : Fin 1024 → EReal) (WxT WhT : SW.Idx → EReal) (b : Fin 4096 → EReal) (WoT : SP.Idx → EReal)
    (bo : Fin 1024 → EReal) (n : Fin 1024) : EReal :=
  ∑ k : Fin 1024, hiddenRow x h c WxT WhT b k * WoT (ix2 k n) + bo n

/-- Row r of a matrix with 1024 columns. -/
abbrev rowOf {R : Nat} (X : (⟨2, ![R, 1024]⟩ : Shape).Idx → EReal) (r : Fin R) : Fin 1024 → EReal := fun k => X (ix2 r k)

/-- The three results as matrices over R rows, from matrices x, h, c over the same rows. -/
def cellMat {R : Nat} (X H C : (⟨2, ![R, 1024]⟩ : Shape).Idx → EReal) (WxT WhT : SW.Idx → EReal) (b : Fin 4096 → EReal) :
    (⟨2, ![R, 1024]⟩ : Shape).Idx → EReal :=
  fun i => cellRow (rowOf X (i 0)) (rowOf H (i 0)) (rowOf C (i 0)) WxT WhT b (i 1)

def hiddenMat {R : Nat} (X H C : (⟨2, ![R, 1024]⟩ : Shape).Idx → EReal) (WxT WhT : SW.Idx → EReal) (b : Fin 4096 → EReal) :
    (⟨2, ![R, 1024]⟩ : Shape).Idx → EReal :=
  fun i => hiddenRow (rowOf X (i 0)) (rowOf H (i 0)) (rowOf C (i 0)) WxT WhT b (i 1)

def outMat {R : Nat} (X H C : (⟨2, ![R, 1024]⟩ : Shape).Idx → EReal) (WxT WhT : SW.Idx → EReal) (b : Fin 4096 → EReal)
    (WoT : SP.Idx → EReal) (bo : Fin 1024 → EReal) : (⟨2, ![R, 1024]⟩ : Shape).Idx → EReal :=
  fun i => outRow (rowOf X (i 0)) (rowOf H (i 0)) (rowOf C (i 0)) WxT WhT b WoT bo (i 1)

end Cert.CellSpec

end
-- ==== Proof.CellPayload.lean ====
/-
  The kernel body's stored values, read at an entry of the block, are the row-wise LSTM step.

  At a grid point the body holds 128 rows of x, h and c and the whole of the transposed stacked weights, the stacked
  bias (as one row), the transposed output projection and the output bias (as one row). Its matrix products
  accumulate into zero, so entry (p, n) of a product is the plain sum over the contracted axis of row p of the left
  factor against column n of the right one; the change of float format in front of each product is the identity on
  the extended reals; a one-row matrix broadcast down the block is that row; the four gate slices are column ranges
  of the 4096-column pre-activation. Hence entry (p, q) of what the body stores is cellRow / hiddenRow / outRow of
  row p of the three input blocks.
-/
import proofs.«104912_j37245956391346_1_alg».proof.Proof.Gen.KernelIdeal.Skeleton
import proofs.«104912_j37245956391346_1_alg».proof.Proof.CellSpec
import Idealize.ShloMosaic.Lib.Pipeline.Value
import Idealize.ShloMosaic.Lib.ValueIdx
import Idealize.ShloMosaic.PureOps.Ideal.Laws

noncomputable section

namespace Cert.KernelIdeal.CellPayload

open Cert.KernelIdeal Cert.KernelIdeal.Gen Cert.CellSpec
open Idealize.ShloMosaic Idealize.ShloMosaic.ValueIdx

/-! ## The two matrix products at an entry -/

theorem lhsGate_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhsGate_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhsGate_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhsGate_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- Entry (p, n) of a 128 × 1024 by 1024 × 4096 product into zero: row p against column n. -/
theorem gateProduct_at (x : FVec Ideal S128x1024 .bf16) (w : FVec Ideal S1024x4096 .bf16) (p : Fin 128) (n : Fin 4096) :
    matmul dot_S128x1024_S1024x4096_S128x4096_1_0_0_1_n_n none x w (constant S128x4096 .f32 0x00000000#32) (ix2 p n)
      = ∑ k : Fin 1024, x (ix2 p k) * w (ix2 k n) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p n) ((ValueIdx.contrEquiv1 dot_S128x1024_S1024x4096_S128x4096_1_0_0_1_n_n 1024 rfl rfl).symm k) = ix2 p k := funext fun a => Fin.ext (by
    match a with
    | ⟨0, _⟩ => exact lhsGate_0 _ _
    | ⟨1, _⟩ => exact (lhsGate_1 _ _).trans hk)
  have er : dot_S128x1024_S1024x4096_S128x4096_1_0_0_1_n_n.rhsIdx (ix2 p n) ((ValueIdx.contrEquiv1 dot_S128x1024_S1024x4096_S128x4096_1_0_0_1_n_n 1024 rfl rfl).symm k) = ix2 k n := funext fun a => Fin.ext (by
    match a with
    | ⟨0, _⟩ => exact (rhsGate_0 _ _).trans hk
    | ⟨1, _⟩ => exact rhsGate_1 _ _)
  rw [el, er]

theorem lhsProj_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhsProj_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhsProj_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhsProj_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Entry (p, n) of a 128 × 1024 by 1024 × 1024 product into zero: row p against column n. -/
theorem projProduct_at (x : FVec Ideal S128x1024 .bf16) (w : FVec Ideal S1024x1024 .bf16) (p : Fin 128) (n : Fin 1024) :
    matmul dot_S128x1024_S1024x1024_S128x1024_1_0_0_1_n_n none x w (constant S128x1024 .f32 0x00000000#32) (ix2 p n)
      = ∑ k : Fin 1024, x (ix2 p k) * w (ix2 k n) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p n) ((ValueIdx.contrEquiv1 dot_S128x1024_S1024x1024_S128x1024_1_0_0_1_n_n 1024 rfl rfl).symm k) = ix2 p k := funext fun a => Fin.ext (by
    match a with
    | ⟨0, _⟩ => exact lhsProj_0 _ _
    | ⟨1, _⟩ => exact (lhsProj_1 _ _).trans hk)
  have er : dot_S128x1024_S1024x1024_S128x1024_1_0_0_1_n_n.rhsIdx (ix2 p n) ((ValueIdx.contrEquiv1 dot_S128x1024_S1024x1024_S128x1024_1_0_0_1_n_n 1024 rfl rfl).symm k) = ix2 k n := funext fun a => Fin.ext (by
    match a with
    | ⟨0, _⟩ => exact (rhsProj_0 _ _).trans hk
    | ⟨1, _⟩ => exact rhsProj_1 _ _)
  rw [el, er]

/-! ## A row broadcast down the block, and a column range of the pre-activation -/

/-- The stacked bias, one row, broadcast down 128 rows: entry (p, n) is entry n of the row. -/
theorem biasRow_at (b : S1x4096.Idx → EReal) (h : S1x4096.Broadcasts S128x4096) (p : Fin 128) (n : Fin 4096) :
    broadcastTo S128x4096 b h (ix2 p n) = b (ix2 (0 : Fin 1) n) :=
  broadcastTo_apply b h (ix2 p n) (ix2 (0 : Fin 1) n) (fun a => by
    match a with
    | ⟨0, _⟩ => rfl
    | ⟨1, _⟩ => show n.val = if (4096 : Nat) = 1 then 0 else n.val; rw [if_neg (by decide)])

/-- The output bias, one row, broadcast down 128 rows. -/
theorem outBiasRow_at (b : S1x1024.Idx → EReal) (h : S1x1024.Broadcasts S128x1024) (p : Fin 128) (n : Fin 1024) :
    broadcastTo S128x1024 b h (ix2 p n) = b (ix2 (0 : Fin 1) n) :=
  broadcastTo_apply b h (ix2 p n) (ix2 (0 : Fin 1) n) (fun a => by
    match a with
    | ⟨0, _⟩ => rfl
    | ⟨1, _⟩ => show n.val = if (1024 : Nat) = 1 then 0 else n.val; rw [if_neg (by decide)])

/-- Columns off … off + 1023 of the pre-activation: entry (p, q) of the slice is entry (p, off + q). -/
theorem gateSlice_at (off : Nat) (hoff : off + 1024 ≤ 4096) (y : S128x4096.Idx → EReal) (h : S128x4096.Slices ![0, off] S128x1024)
    (p : Fin 128) (q : Fin 1024) :
    extractStridedSlice S128x1024 ![0, off] y h (ix2 p q) = y (ix2 p (⟨off + q.val, by have := q.isLt; omega⟩ : Fin 4096)) :=
  extractStridedSlice_apply ![0, off] y h (ix2 p q) (ix2 p (⟨off + q.val, by have := q.isLt; omega⟩ : Fin 4096)) (fun a => by
    match a with
    | ⟨0, _⟩ => show p.val = 0 + p.val; omega
    | ⟨1, _⟩ => rfl)

/-! ## The payloads -/

section
variable (x0 x1 x2 : Vec Ideal S128x1024 .f32) (w3 w4 : Vec Ideal S1024x4096 .bf16) (b5 : Vec Ideal S1x4096 .f32)
  (w6 : Vec Ideal S1024x1024 .bf16) (b7 : Vec Ideal S1x1024 .f32)

/-- The 4096-column pre-activation of block row p. -/
theorem preact_at (p : Fin 128) (n : Fin 4096) :
    k0_pay2 x0 x1 w3 w4 b5 (ix2 p n)
      = gate (fun k => x0 (ix2 p k)) (fun k => x1 (ix2 p k)) w3 w4 (fun n => b5 (ix2 (0 : Fin 1) n)) n := by
  unfold k0_pay2 gate
  show (matmul (F := Ideal) dot_S128x1024_S1024x4096_S128x4096_1_0_0_1_n_n none (truncf (F := Ideal) .bf16 x0 bitsLt_bf16_f32) (shapeCast S1024x4096 w3 shapeCasts_S1024x4096_S1024x4096) (constant (F := Ideal) S128x4096 .f32 0x00000000#32) (ix2 p n)
      + matmul (F := Ideal) dot_S128x1024_S1024x4096_S128x4096_1_0_0_1_n_n none (truncf (F := Ideal) .bf16 x1 bitsLt_bf16_f32) (shapeCast S1024x4096 w4 shapeCasts_S1024x4096_S1024x4096) (constant (F := Ideal) S128x4096 .f32 0x00000000#32) (ix2 p n))
      + broadcastTo S128x4096 (shapeCast S1x4096 b5 shapeCasts_S1x4096_S1x4096) broadcasts_S1x4096_S128x4096 (ix2 p n) = _
  rw [shapeCast_self, shapeCast_self, shapeCast_self, gateProduct_at, gateProduct_at, biasRow_at]
  rfl

/-- The new cell state's stored value at (p, q). -/
theorem cellPayload_at (p : Fin 128) (q : Fin 1024) :
    k0_pay3 x0 x1 w3 w4 b5 x2 (ix2 p q)
      = cellRow (fun k => x0 (ix2 p k)) (fun k => x1 (ix2 p k)) (fun k => x2 (ix2 p k)) w3 w4 (fun n => b5 (ix2 (0 : Fin 1) n)) q := by
  unfold k0_pay3 cellRow
  show Ideal.logistic (extractStridedSlice S128x1024 ![0, 0] (k0_pay2 x0 x1 w3 w4 b5) slices_S128x4096_o0_0_S128x1024 (ix2 p q)) * x2 (ix2 p q)
      + Ideal.logistic (extractStridedSlice S128x1024 ![0, 1024] (k0_pay2 x0 x1 w3 w4 b5) slices_S128x4096_o0_1024_S128x1024 (ix2 p q))
        * Ideal.tanh (extractStridedSlice S128x1024 ![0, 3072] (k0_pay2 x0 x1 w3 w4 b5) slices_S128x4096_o0_3072_S128x1024 (ix2 p q)) = _
  rw [gateSlice_at 0 (by decide), gateSlice_at 1024 (by decide), gateSlice_at 3072 (by decide), preact_at, preact_at, preact_at]
  have e0 : (⟨0 + q.val, by have := q.isLt; omega⟩ : Fin 4096) = colF q := Fin.ext (Nat.zero_add _)
  rw [e0]

/-- The new hidden state's stored value at (p, q). -/
theorem hiddenPayload_at (p : Fin 128) (q : Fin 1024) :
    k0_pay4 x0 x1 w3 w4 b5 x2 (ix2 p q)
      = hiddenRow (fun k => x0 (ix2 p k)) (fun k => x1 (ix2 p k)) (fun k => x2 (ix2 p k)) w3 w4 (fun n => b5 (ix2 (0 : Fin 1) n)) q := by
  unfold k0_pay4 hiddenRow
  show Ideal.logistic (extractStridedSlice S128x1024 ![0, 2048] (k0_pay2 x0 x1 w3 w4 b5) slices_S128x4096_o0_2048_S128x1024 (ix2 p q))
      * Ideal.tanh (k0_pay3 x0 x1 w3 w4 b5 x2 (ix2 p q)) = _
  rw [gateSlice_at 2048 (by decide), preact_at, cellPayload_at]

/-- The output's stored value at (p, n). -/
theorem outPayload_at (p : Fin 128) (n : Fin 1024) :
    k0_pay1 (k0_pay5 x0 x1 w3 w4 b5 x2 w6) b7 (ix2 p n)
      = outRow (fun k => x0 (ix2 p k)) (fun k => x1 (ix2 p k)) (fun k => x2 (ix2 p k)) w3 w4 (fun n => b5 (ix2 (0 : Fin 1) n)) w6
          (fun n => b7 (ix2 (0 : Fin 1) n)) n := by
  unfold k0_pay1 k0_pay5 outRow
  show matmul (F := Ideal) dot_S128x1024_S1024x1024_S128x1024_1_0_0_1_n_n none (truncf (F := Ideal) .bf16 (k0_pay4 x0 x1 w3 w4 b5 x2) bitsLt_bf16_f32) (shapeCast S1024x1024 w6 shapeCasts_S1024x1024_S1024x1024) (constant (F := Ideal) S128x1024 .f32 0x00000000#32) (ix2 p n)
      + broadcastTo S128x1024 (shapeCast S1x1024 b7 shapeCasts_S1x1024_S1x1024) broadcasts_S1x1024_S128x1024 (ix2 p n) = _
  rw [shapeCast_self, shapeCast_self, projProduct_at, outBiasRow_at]
  refine congrArg (· + b7 (ix2 (0 : Fin 1) n)) (Finset.sum_congr rfl fun k _ => ?_)
  show k0_pay4 x0 x1 w3 w4 b5 x2 (ix2 p k) * w6 (ix2 k n) = _
  rw [hiddenPayload_at]

end

end Cert.KernelIdeal.CellPayload

end
-- ==== Proof.CellArrays.lean ====
/-
  The kernel's three result arrays after the run are the row-wise LSTM step of the argument arrays.

  Grid point t handles rows 128 t … 128 t + 127: the index maps of the three row-blocked inputs and of the three
  outputs are (t, 0), and those of the five whole-array inputs are (0, 0) at every point (decided over the 32 points).
  So row p of an input block is row 128 t + p of its array, a whole-array block is the array, and entry (p, q) of
  what point t writes back is the stored value at (p, q), which by the payload lemmas is cellRow / hiddenRow / outRow
  of row 128 t + p: exactly block t of the matrix cellMat / hiddenMat / outMat of the arrays as the region finds
  them. Every row lies in the block of point (row / 128), every point writes its block back, so the blocks cover
  the array and the final array IS that matrix.
-/
import proofs.«104912_j37245956391346_1_alg».proof.Proof.CellFrameIdeal
import proofs.«104912_j37245956391346_1_alg».proof.Proof.CellPayload
import Idealize.ShloMosaic.Lib.Pipeline.Value

set_option maxRecDepth 16384

noncomputable section

namespace Cert.KernelIdeal.CellValue

open Cert.KernelIdeal Cert.KernelIdeal.Gen Cert.KernelIdeal.Cell Cert.KernelIdeal.CellPayload Cert.CellSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the row-blocked windows sit at block (t, 0), the whole-array
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row p of grid point t's block is row 128 t + p of the batch. -/
abbrev rowAt (t : Fin cfg0.N) (p : Fin 128) : Fin 4096 :=
  ⟨t.val * 128 + p.val, by have h : t.val < cfg0.N := t.isLt; have hN : cfg0.N = 32 := N_0; have hp : p.val < 128 := p.isLt; omega⟩

/-! ## The weights as the region finds them -/

/-- The transposed stacked input weights, the transposed stacked hidden weights, the stacked bias, the transposed
    output projection and the output bias, as the host operations before the region leave them. -/
abbrev kWxT (c : Dev nD) : SW.Idx → EReal := V m c main_v4
abbrev kWhT (c : Dev nD) : SW.Idx → EReal := V m c main_v6
abbrev kBias (c : Dev nD) : Fin 4096 → EReal := fun n => (V m c main_v9 : S1x4096.Idx → Elt Ideal .f32) (ix2 (0 : Fin 1) n)
abbrev kWoT (c : Dev nD) : SP.Idx → EReal := V m c main_v8
abbrev kOutBias (c : Dev nD) : Fin 1024 → EReal := fun n => (V m c main_v10 : S1x1024.Idx → Elt Ideal .f32) (ix2 (0 : Fin 1) n)

/-! ## The input blocks as rows of their arrays -/

theorem xRows_at (c : Dev nD) (t : Fin cfg0.N) (p : Fin 128) (k : Fin 1024) :
    (iblk m c 0 t : Vec Ideal S128x1024 .f32) (ix2 p k) = (V m c main_arg0 : S4096x1024.Idx → Elt Ideal .f32) (ix2 (rowAt t p) k) := by
  obtain ⟨h00, h01, h10, h11, h20, h21, -⟩ := idx_facts t
  unfold iblk
  rw [View.read_apply]
  show V m c main_arg0 _ = V m c main_arg0 _
  refine congrArg (V m c main_arg0) ?_
  funext a; apply Fin.ext
  match a with
  | ⟨0, _⟩ => show win0_0.index t (0 : Fin 2) * 128 + 1 * p.val = t.val * 128 + p.val; rw [h00]; omega
  | ⟨1, _⟩ => show win0_0.index t (1 : Fin 2) * 1024 + 1 * k.val = k.val; rw [h01]; omega

theorem hRows_at (c : Dev nD) (t : Fin cfg0.N) (p : Fin 128) (k : Fin 1024) :
    (iblk m c 1 t : Vec Ideal S128x1024 .f32) (ix2 p k) = (V m c main_arg1 : S4096x1024.Idx → Elt Ideal .f32) (ix2 (rowAt t p) k) := by
  obtain ⟨h00, h01, h10, h11, h20, h21, -⟩ := idx_facts t
  unfold iblk
  rw [View.read_apply]
  show V m c main_arg1 _ = V m c main_arg1 _
  refine congrArg (V m c main_arg1) ?_
  funext a; apply Fin.ext
  match a with
  | ⟨0, _⟩ => show win0_1.index t (0 : Fin 2) * 128 + 1 * p.val = t.val * 128 + p.val; rw [h10]; omega
  | ⟨1, _⟩ => show win0_1.index t (1 : Fin 2) * 1024 + 1 * k.val = k.val; rw [h11]; omega

theorem cRows_at (c : Dev nD) (t : Fin cfg0.N) (p : Fin 128) (k : Fin 1024) :
    (iblk m c 2 t : Vec Ideal S128x1024 .f32) (ix2 p k) = (V m c main_arg2 : S4096x1024.Idx → Elt Ideal .f32) (ix2 (rowAt t p) k) := by
  obtain ⟨h00, h01, h10, h11, h20, h21, -⟩ := idx_facts t
  unfold iblk
  rw [View.read_apply]
  show V m c main_arg2 _ = V m c main_arg2 _
  refine congrArg (V m c main_arg2) ?_
  funext a; apply Fin.ext
  match a with
  | ⟨0, _⟩ => show win0_2.index t (0 : Fin 2) * 128 + 1 * p.val = t.val * 128 + p.val; rw [h20]; omega
  | ⟨1, _⟩ => show win0_2.index t (1 : Fin 2) * 1024 + 1 * k.val = k.val; rw [h21]; omega

/-- The stacked input weights' block is the whole array. -/
theorem wxBlock_eq (c : Dev nD) (t : Fin cfg0.N) : (iblk m c 3 t : Vec Ideal S1024x4096 .bf16) = kWxT m c := by
  obtain ⟨h00, h01, h10, h11, h20, h21, h30, h31, -⟩ := idx_facts t
  funext j
  unfold iblk
  rw [View.read_apply]
  show V m c main_v4 _ = V m c main_v4 j
  refine congrArg (V m c main_v4) ?_
  funext a; apply Fin.ext
  match a with
  | ⟨0, _⟩ => show win0_3.index t (0 : Fin 2) * 1024 + 1 * (j 0).val = (j 0).val; rw [h30]; omega
  | ⟨1, _⟩ => show win0_3.index t (1 : Fin 2) * 4096 + 1 * (j 1).val = (j 1).val; rw [h31]; omega

/-- The stacked hidden weights' block is the whole array. -/
theorem whBlock_eq (c : Dev nD) (t : Fin cfg0.N) : (iblk m c 4 t : Vec Ideal S1024x4096 .bf16) = kWhT m c := by
  obtain ⟨h00, h01, h10, h11, h20, h21, h30, h31, h40, h41, -⟩ := idx_facts t
  funext j
  unfold iblk
  rw [View.read_apply]
  show V m c main_v6 _ = V m c main_v6 j
  refine congrArg (V m c main_v6) ?_
  funext a; apply Fin.ext
  match a with
  | ⟨0, _⟩ => show win0_4.index t (0 : Fin 2) * 1024 + 1 * (j 0).val = (j 0).val; rw [h40]; omega
  | ⟨1, _⟩ => show win0_4.index t (1 : Fin 2) * 4096 + 1 * (j 1).val = (j 1).val; rw [h41]; omega

/-- The output projection's block is the whole array. -/
theorem woBlock_eq (c : Dev nD) (t : Fin cfg0.N) : (iblk m c 6 t : Vec Ideal S1024x1024 .bf16) = kWoT m c := by
  obtain ⟨h00, h01, h10, h11, h20, h21, h30, h31, h40, h41, h50, h51, h60, h61, -⟩ := idx_facts t
  funext j
  unfold iblk
  rw [View.read_apply]
  show V m c main_v8 _ = V m c main_v8 j
  refine congrArg (V m c main_v8) ?_
  funext a; apply Fin.ext
  match a with
  | ⟨0, _⟩ => show win0_6.index t (0 : Fin 2) * 1024 + 1 * (j 0).val = (j 0).val; rw [h60]; omega
  | ⟨1, _⟩ => show win0_6.index t (1 : Fin 2) * 1024 + 1 * (j 1).val = (j 1).val; rw [h61]; omega

/-- The stacked bias' block is the one-row array. -/
theorem biasBlock_at (c : Dev nD) (t : Fin cfg0.N) (n : Fin 4096) :
    (iblk m c 5 t : Vec Ideal S1x4096 .f32) (ix2 (0 : Fin 1) n) = kBias m c n := by
  obtain ⟨h00, h01, h10, h11, h20, h21, h30, h31, h40, h41, h50, h51, -⟩ := idx_facts t
  unfold iblk
  rw [View.read_apply]
  show V m c main_v9 _ = V m c main_v9 (ix2 (0 : Fin 1) n)
  refine congrArg (V m c main_v9) ?_
  funext a; apply Fin.ext
  match a with
  | ⟨0, _⟩ => show win0_5.index t (0 : Fin 2) * 1 + 1 * 0 = 0; rw [h50]
  | ⟨1, _⟩ => show win0_5.index t (1 : Fin 2) * 4096 + 1 * n.val = n.val; rw [h51]; omega

/-- The output bias' block is the one-row array. -/
theorem outBiasBlock_at (c : Dev nD) (t : Fin cfg0.N) (n : Fin 1024) :
    (iblk m c 7 t : Vec Ideal S1x1024 .f32) (ix2 (0 : Fin 1) n) = kOutBias m c n := by
  obtain ⟨h00, h01, h10, h11, h20, h21, h30, h31, h40, h41, h50, h51, h60, h61, h70, h71, -⟩ := idx_facts t
  unfold iblk
  rw [View.read_apply]
  show V m c main_v10 _ = V m c main_v10 (ix2 (0 : Fin 1) n)
  refine congrArg (V m c main_v10) ?_
  funext a; apply Fin.ext
  match a with
  | ⟨0, _⟩ => show win0_7.index t (0 : Fin 2) * 1 + 1 * 0 = 0; rw [h70]
  | ⟨1, _⟩ => show win0_7.index t (1 : Fin 2) * 1024 + 1 * n.val = n.val; rw [h71]; omega

/-! ## What each point writes back -/

/-- Point t writes back block t of the new hidden state's matrix. -/
theorem flushedHidden_eq (c : Dev nD) (t : Fin cfg0.N) :
    (dats m 0 c).flushed 8 t = ((cfg0.win 8).blk t).view.read (Elt Ideal) (hiddenMat (V m c main_arg0) (V m c main_arg1) (V m c main_arg2) (kWxT m c) (kWhT m c) (kBias m c)) := by
  obtain ⟨h00, h01, h10, h11, h20, h21, h30, h31, h40, h41, h50, h51, h60, h61, h70, h71, h80, h81, h90, h91, hA0, hA1⟩ := idx_facts t
  show (cfg0.win 8).cut (grid0.coords t) ((dats m 0 c).after 8 t) = _
  rw [after0_8]
  unfold cellHidden
  rw [View.canon_unit_zero hz]
  simp only [View.ld_unit_zero (S := S128x1024) hz, View.ld_unit_zero (S := S1024x4096) hz, View.ld_unit_zero (S := S1x4096) hz]
  funext j
  obtain ⟨p, q, rfl⟩ : ∃ (p : Fin 128) (q : Fin 1024), j = ix2 p q := ⟨j 0, j 1, eq_ix2 j⟩
  refine (hiddenPayload_at (iblk m c 0 t) (iblk m c 1 t) (iblk m c 2 t) (iblk m c 3 t) (iblk m c 4 t) (iblk m c 5 t) p q).trans ?_
  have ej : ((cfg0.win 8).blk t).view.emb (ix2 p q) = ix2 (rowAt t p) q := by
    funext a; apply Fin.ext
    match a with
    | ⟨0, _⟩ => show win0_8.index t (0 : Fin 2) * 128 + 1 * p.val = t.val * 128 + p.val; rw [h80]; omega
    | ⟨1, _⟩ => show win0_8.index t (1 : Fin 2) * 1024 + 1 * q.val = q.val; rw [h81]; omega
  show _ = hiddenMat (V m c main_arg0) (V m c main_arg1) (V m c main_arg2) (kWxT m c) (kWhT m c) (kBias m c) (((cfg0.win 8).blk t).view.emb (ix2 p q))
  rw [ej]
  have e0 : (fun k => (iblk m c 0 t : Vec Ideal S128x1024 .f32) (ix2 p k)) = fun k => V m c main_arg0 (ix2 (rowAt t p) k) := funext fun k => xRows_at m c t p k
  have e1 : (fun k => (iblk m c 1 t : Vec Ideal S128x1024 .f32) (ix2 p k)) = fun k => V m c main_arg1 (ix2 (rowAt t p) k) := funext fun k => hRows_at m c t p k
  have e2 : (fun k => (iblk m c 2 t : Vec Ideal S128x1024 .f32) (ix2 p k)) = fun k => V m c main_arg2 (ix2 (rowAt t p) k) := funext fun k => cRows_at m c t p k
  have e5 : (fun n => (iblk m c 5 t : Vec Ideal S1x4096 .f32) (ix2 (0 : Fin 1) n)) = kBias m c := funext fun n => biasBlock_at m c t n
  rw [e0, e1, e2, e5, wxBlock_eq m c t, whBlock_eq m c t]
  rfl

/-- Point t writes back block t of the new cell state's matrix. -/
theorem flushedCell_eq (c : Dev nD) (t : Fin cfg0.N) :
    (dats m 0 c).flushed 9 t = ((cfg0.win 9).blk t).view.read (Elt Ideal) (cellMat (V m c main_arg0) (V m c main_arg1) (V m c main_arg2) (kWxT m c) (kWhT m c) (kBias m c)) := by
  obtain ⟨h00, h01, h10, h11, h20, h21, h30, h31, h40, h41, h50, h51, h60, h61, h70, h71, h80, h81, h90, h91, hA0, hA1⟩ := idx_facts t
  show (cfg0.win 9).cut (grid0.coords t) ((dats m 0 c).after 9 t) = _
  rw [after0_9]
  unfold cellState
  rw [View.canon_unit_zero hz]
  simp only [View.ld_unit_zero (S := S128x1024) hz, View.ld_unit_zero (S := S1024x4096) hz, View.ld_unit_zero (S := S1x4096) hz]
  funext j
  obtain ⟨p, q, rfl⟩ : ∃ (p : Fin 128) (q : Fin 1024), j = ix2 p q := ⟨j 0, j 1, eq_ix2 j⟩
  refine (cellPayload_at (iblk m c 0 t) (iblk m c 1 t) (iblk m c 2 t) (iblk m c 3 t) (iblk m c 4 t) (iblk m c 5 t) p q).trans ?_
  have ej : ((cfg0.win 9).blk t).view.emb (ix2 p q) = ix2 (rowAt t p) q := by
    funext a; apply Fin.ext
    match a with
    | ⟨0, _⟩ => show win0_9.index t (0 : Fin 2) * 128 + 1 * p.val = t.val * 128 + p.val; rw [h90]; omega
    | ⟨1, _⟩ => show win0_9.index t (1 : Fin 2) * 1024 + 1 * q.val = q.val; rw [h91]; omega
  show _ = cellMat (V m c main_arg0) (V m c main_arg1) (V m c main_arg2) (kWxT m c) (kWhT m c) (kBias m c) (((cfg0.win 9).blk t).view.emb (ix2 p q))
  rw [ej]
  have e0 : (fun k => (iblk m c 0 t : Vec Ideal S128x1024 .f32) (ix2 p k)) = fun k => V m c main_arg0 (ix2 (rowAt t p) k) := funext fun k => xRows_at m c t p k
  have e1 : (fun k => (iblk m c 1 t : Vec Ideal S128x1024 .f32) (ix2 p k)) = fun k => V m c main_arg1 (ix2 (rowAt t p) k) := funext fun k => hRows_at m c t p k
  have e2 : (fun k => (iblk m c 2 t : Vec Ideal S128x1024 .f32) (ix2 p k)) = fun k => V m c main_arg2 (ix2 (rowAt t p) k) := funext fun k => cRows_at m c t p k
  have e5 : (fun n => (iblk m c 5 t : Vec Ideal S1x4096 .f32) (ix2 (0 : Fin 1) n)) = kBias m c := funext fun n => biasBlock_at m c t n
  rw [e0, e1, e2, e5, wxBlock_eq m c t, whBlock_eq m c t]
  rfl

/-- Point t writes back block t of the output's matrix. -/
theorem flushedOut_eq (c : Dev nD) (t : Fin cfg0.N) :
    (dats m 0 c).flushed 10 t = ((cfg0.win 10).blk t).view.read (Elt Ideal) (outMat (V m c main_arg0) (V m c main_arg1) (V m c main_arg2) (kWxT m c) (kWhT m c) (kBias m c) (kWoT m c) (kOutBias m c)) := by
  obtain ⟨h00, h01, h10, h11, h20, h21, h30, h31, h40, h41, h50, h51, h60, h61, h70, h71, h80, h81, h90, h91, hA0, hA1⟩ := idx_facts t
  show (cfg0.win 10).cut (grid0.coords t) ((dats m 0 c).after 10 t) = _
  rw [after0_10]
  unfold cellOut
  rw [View.canon_unit_zero hz]
  simp only [View.ld_unit_zero (S := S128x1024) hz, View.ld_unit_zero (S := S1024x4096) hz, View.ld_unit_zero (S := S1x4096) hz, View.ld_unit_zero (S := S1024x1024) hz, View.ld_unit_zero (S := S1x1024) hz]
  funext j
  obtain ⟨p, q, rfl⟩ : ∃ (p : Fin 128) (q : Fin 1024), j = ix2 p q := ⟨j 0, j 1, eq_ix2 j⟩
  refine (outPayload_at (iblk m c 0 t) (iblk m c 1 t) (iblk m c 2 t) (iblk m c 3 t) (iblk m c 4 t) (iblk m c 5 t) (iblk m c 6 t) (iblk m c 7 t) p q).trans ?_
  have ej : ((cfg0.win 10).blk t).view.emb (ix2 p q) = ix2 (rowAt t p) q := by
    funext a; apply Fin.ext
    match a with
    | ⟨0, _⟩ => show win0_10.index t (0 : Fin 2) * 128 + 1 * p.val = t.val * 128 + p.val; rw [hA0]; omega
    | ⟨1, _⟩ => show win0_10.index t (1 : Fin 2) * 1024 + 1 * q.val = q.val; rw [hA1]; omega
  show _ = outMat (V m c main_arg0) (V m c main_arg1) (V m c main_arg2) (kWxT m c) (kWhT m c) (kBias m c) (kWoT m c) (kOutBias m c) (((cfg0.win 10).blk t).view.emb (ix2 p q))
  rw [ej]
  have e0 : (fun k => (iblk m c 0 t : Vec Ideal S128x1024 .f32) (ix2 p k)) = fun k => V m c main_arg0 (ix2 (rowAt t p) k) := funext fun k => xRows_at m c t p k
  have e1 : (fun k => (iblk m c 1 t : Vec Ideal S128x1024 .f32) (ix2 p k)) = fun k => V m c main_arg1 (ix2 (rowAt t p) k) := funext fun k => hRows_at m c t p k
  have e2 : (fun k => (iblk m c 2 t : Vec Ideal S128x1024 .f32) (ix2 p k)) = fun k => V m c main_arg2 (ix2 (rowAt t p) k) := funext fun k => cRows_at m c t p k
  have e5 : (fun n => (iblk m c 5 t : Vec Ideal S1x4096 .f32) (ix2 (0 : Fin 1) n)) = kBias m c := funext fun n => biasBlock_at m c t n
  have e7 : (fun n => (iblk m c 7 t : Vec Ideal S1x1024 .f32) (ix2 (0 : Fin 1) n)) = kOutBias m c := funext fun n => outBiasBlock_at m c t n
  rw [e0, e1, e2, e5, e7, wxBlock_eq m c t, whBlock_eq m c t, woBlock_eq m c t]
  rfl

/-! ## The blocks cover the arrays -/

theorem mem_blk8 (t : Fin cfg0.N) (i : S4096x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v11_0).slice (win0_8.rect t)).set ↔ _
  rw [View.set_slice_whole, Rect.mem_set_unit]
  exact Iff.rfl

theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 32 := N_0
  refine ⟨⟨(i 0).val / 128, by rw [hN]; omega⟩, flush0_8 _, ?_⟩
  obtain ⟨h00, h01, h10, h11, h20, h21, h30, h31, h40, h41, h50, h51, h60, h61, h70, h71, h80, h81, h90, h91, hA0, hA1⟩ := idx_facts ⟨(i 0).val / 128, by rw [hN]; omega⟩
  rw [mem_blk8]
  intro a
  match a with
  | ⟨0, _⟩ => show win0_8.index _ (0 : Fin 2) * 128 ≤ (i 0).val ∧ (i 0).val < win0_8.index _ (0 : Fin 2) * 128 + 128; rw [h80]; show (i 0).val / 128 * 128 ≤ (i 0).val ∧ (i 0).val < (i 0).val / 128 * 128 + 128; omega
  | ⟨1, _⟩ => show win0_8.index _ (1 : Fin 2) * 1024 ≤ (i 1).val ∧ (i 1).val < win0_8.index _ (1 : Fin 2) * 1024 + 1024; rw [h81]; omega

theorem mem_blk9 (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v11_1).slice (win0_9.rect t)).set ↔ _
  rw [View.set_slice_whole, Rect.mem_set_unit]
  exact Iff.rfl

theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 32 := N_0
  refine ⟨⟨(i 0).val / 128, by rw [hN]; omega⟩, flush0_9 _, ?_⟩
  obtain ⟨h00, h01, h10, h11, h20, h21, h30, h31, h40, h41, h50, h51, h60, h61, h70, h71, h80, h81, h90, h91, hA0, hA1⟩ := idx_facts ⟨(i 0).val / 128, by rw [hN]; omega⟩
  rw [mem_blk9]
  intro a
  match a with
  | ⟨0, _⟩ => show win0_9.index _ (0 : Fin 2) * 128 ≤ (i 0).val ∧ (i 0).val < win0_9.index _ (0 : Fin 2) * 128 + 128; rw [h90]; show (i 0).val / 128 * 128 ≤ (i 0).val ∧ (i 0).val < (i 0).val / 128 * 128 + 128; omega
  | ⟨1, _⟩ => show win0_9.index _ (1 : Fin 2) * 1024 ≤ (i 1).val ∧ (i 1).val < win0_9.index _ (1 : Fin 2) * 1024 + 1024; rw [h91]; omega

theorem mem_blk10 (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v11_2).slice (win0_10.rect t)).set ↔ _
  rw [View.set_slice_whole, Rect.mem_set_unit]
  exact Iff.rfl

theorem cover10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 32 := N_0
  refine ⟨⟨(i 0).val / 128, by rw [hN]; omega⟩, flush0_10 _, ?_⟩
  obtain ⟨h00, h01, h10, h11, h20, h21, h30, h31, h40, h41, h50, h51, h60, h61, h70, h71, h80, h81, h90, h91, hA0, hA1⟩ := idx_facts ⟨(i 0).val / 128, by rw [hN]; omega⟩
  rw [mem_blk10]
  intro a
  match a with
  | ⟨0, _⟩ => show win0_10.index _ (0 : Fin 2) * 128 ≤ (i 0).val ∧ (i 0).val < win0_10.index _ (0 : Fin 2) * 128 + 128; rw [hA0]; show (i 0).val / 128 * 128 ≤ (i 0).val ∧ (i 0).val < (i 0).val / 128 * 128 + 128; omega
  | ⟨1, _⟩ => show win0_10.index _ (1 : Fin 2) * 1024 ≤ (i 1).val ∧ (i 1).val < win0_10.index _ (1 : Fin 2) * 1024 + 1024; rw [hA1]; omega

/-! ## The arrays after the run -/

theorem finalHidden (c : Dev nD) : (dats m 0 c).arrAt 8 cfg0.N = hiddenMat (V m c main_arg0) (V m c main_arg1) (V m c main_arg2) (kWxT m c) (kWhT m c) (kBias m c) :=
  (dats m 0 c).arrAt_eq_of_cover 8 _ (fun t _ => flushedHidden_eq m c t) cover8

theorem finalCell (c : Dev nD) : (dats m 0 c).arrAt 9 cfg0.N = cellMat (V m c main_arg0) (V m c main_arg1) (V m c main_arg2) (kWxT m c) (kWhT m c) (kBias m c) :=
  (dats m 0 c).arrAt_eq_of_cover 9 _ (fun t _ => flushedCell_eq m c t) cover9

theorem finalOut (c : Dev nD) : (dats m 0 c).arrAt 10 cfg0.N = outMat (V m c main_arg0) (V m c main_arg1) (V m c main_arg2) (kWxT m c) (kWhT m c) (kBias m c) (kWoT m c) (kOutBias m c) :=
  (dats m 0 c).arrAt_eq_of_cover 10 _ (fun t _ => flushedOut_eq m c t) cover10

/-- The run with its results named: the three result arrays at the row-wise step of the arrays as the region finds
    them, the seventeen arguments as launched. -/
theorem run : θ_run defs (onTc (τ := τ) (main (F := Ideal))) ⟨m, fun _ => 0, ρ⟩ (fun r => ∀ c : Dev nD,
      r.2.mem ((c.tc : Thread nD τ).loc main_v11_0) = hiddenMat (V m c main_arg0) (V m c main_arg1) (V m c main_arg2) (kWxT m c) (kWhT m c) (kBias m c)
      ∧ r.2.mem ((c.tc : Thread nD τ).loc main_v11_1) = cellMat (V m c main_arg0) (V m c main_arg1) (V m c main_arg2) (kWxT m c) (kWhT m c) (kBias m c)
      ∧ r.2.mem ((c.tc : Thread nD τ).loc main_v11_2) = outMat (V m c main_arg0) (V m c main_arg1) (V m c main_arg2) (kWxT m c) (kWhT m c) (kBias m c) (kWoT m c) (kOutBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).1 8).trans (finalHidden m c), ((h c).1 9).trans (finalCell m c), ((h c).1 10).trans (finalOut m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩)
    (run_main m ρ)

end Cert.KernelIdeal.CellValue

end
-- ==== Proof.CellRefRead.lean ====
/-
  The reference's three results, read at an entry, are the row-wise LSTM step.

  The reference multiplies all 4096 rows at once: x against the transposed stacked input weights, h against the
  transposed stacked hidden weights, adds the two and the stacked bias (broadcast down the rows), cuts the 4096
  columns into the four gates, applies to three of them jax's expansion of the logistic function, 1 / (1 + e^(-z))
  with the literal 1.0, and tanh to the fourth, and finishes as the kernel does. On the extended reals the
  expansion IS the logistic function, the host's product is the plain sum over the contracted axis, and every stage
  reads its operand at one entry, so entry (r, q) of each result is cellRow / hiddenRow / outRow of row r.
-/
import proofs.«104912_j37245956391346_1_alg».proof.Proof.Gen.ReferenceIdeal.Read
import proofs.«104912_j37245956391346_1_alg».proof.Proof.CellSpec
import Idealize.ShloMosaic.Lib.IdealHost

noncomputable section

namespace Cert.ReferenceIdeal.CellRead

open Cert.ReferenceIdeal Cert.ReferenceIdeal.Read Cert.CellSpec
open Idealize.ShloMosaic Idealize.ShloMosaic.ValueIdx

/-- jax's expansion of the logistic function, with the literal 1.0, is the logistic function. -/
theorem logistic_expansion (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z))) = Ideal.logistic z := by
  simp only [Ideal.hostDivf_def, Ideal.addf_def, Ideal.hostUnary_exp_def, Ideal.hostNegf_def, Ideal.negf_def, Ideal.ofBits_def, Ideal.ofBits_one_f32]
  rfl

section
variable (x0 x1 x2 : (⟨S4096x1024, .f32⟩ : BufTy).Contents (Elt Ideal))
  (x3 : (⟨S1024x1024, .f32⟩ : BufTy).Contents (Elt Ideal)) (x4 : (⟨S1024, .f32⟩ : BufTy).Contents (Elt Ideal))
  (x5 x6 : (⟨S1024x1024, .f32⟩ : BufTy).Contents (Elt Ideal)) (x7 : (⟨S1024, .f32⟩ : BufTy).Contents (Elt Ideal))
  (x8 x9 : (⟨S1024x1024, .f32⟩ : BufTy).Contents (Elt Ideal)) (x10 : (⟨S1024, .f32⟩ : BufTy).Contents (Elt Ideal))
  (x11 x12 : (⟨S1024x1024, .f32⟩ : BufTy).Contents (Elt Ideal)) (x13 : (⟨S1024, .f32⟩ : BufTy).Contents (Elt Ideal))
  (x14 x15 : (⟨S1024x1024, .f32⟩ : BufTy).Contents (Elt Ideal)) (x16 : (⟨S1024, .f32⟩ : BufTy).Contents (Elt Ideal))

/-- What the reference contracts against and adds: the transposed stacked weights, the stacked bias, the transposed
    output projection and the output bias, as the reference's own stages compute them from the arguments. -/
abbrev refWxT : SW.Idx → EReal := val_main_v3 (F := Ideal) x3 x6 x9 x12
abbrev refWhT : SW.Idx → EReal := val_main_v5 (F := Ideal) x5 x8 x11 x14
abbrev refBias : Fin 4096 → EReal := fun n => val_main_v2 (F := Ideal) x4 x7 x10 x13 (ix1 n)
abbrev refWoT : SP.Idx → EReal := val_main_v39 (F := Ideal) x15
abbrev refOutBias : Fin 1024 → EReal := fun n => x16 (ix1 n)

/-- The 4096-column pre-activation of row r. -/
theorem preact_read (r : Fin 4096) (n : Fin 4096) :
    val_main_v10 (F := Ideal) x0 x1 x3 x4 x5 x6 x7 x8 x9 x10 x11 x12 x13 x14 (ix2 r n) = gate (fun k => x0 (ix2 r k)) (fun k => x1 (ix2 r k)) (refWxT x3 x6 x9 x12) (refWhT x5 x8 x11 x14) (refBias x4 x7 x10 x13) n := by
  have el4 : ∀ k, lidx_main_v4 (ix2 r n) k = ix2 r k := fun k => funext fun a => Fin.ext (by match a with | ⟨0, _⟩ => rfl | ⟨1, _⟩ => rfl)
  have er4 : ∀ k, ridx_main_v4 (ix2 r n) k = ix2 k n := fun k => funext fun a => Fin.ext (by match a with | ⟨0, _⟩ => rfl | ⟨1, _⟩ => rfl)
  have el6 : ∀ k, lidx_main_v6 (ix2 r n) k = ix2 r k := fun k => funext fun a => Fin.ext (by match a with | ⟨0, _⟩ => rfl | ⟨1, _⟩ => rfl)
  have er6 : ∀ k, ridx_main_v6 (ix2 r n) k = ix2 k n := fun k => funext fun a => Fin.ext (by match a with | ⟨0, _⟩ => rfl | ⟨1, _⟩ => rfl)
  have eb : idx_main_v8 (idx_main_v9 (ix2 r n)) = ix1 n := funext fun a => Fin.ext (by match a with | ⟨0, _⟩ => rfl)
  rw [val_main_v10_apply, val_main_v7_apply, val_main_v4_apply, val_main_v6_apply, val_main_v9_apply, val_main_v8_apply]
  simp only [el4, er4, el6, er6, eb]
  rfl

/-- The forget gate of row r at column q. -/
theorem forget_read (r : Fin 4096) (q : Fin 1024) :
    val_main_v20 (F := Ideal) x0 x1 x3 x4 x5 x6 x7 x8 x9 x10 x11 x12 x13 x14 (ix2 r q) = Ideal.logistic (gate (fun k => x0 (ix2 r k)) (fun k => x1 (ix2 r k)) (refWxT x3 x6 x9 x12) (refWhT x5 x8 x11 x14) (refBias x4 x7 x10 x13) (colF q)) := by
  have e : idx_main_v11 (ix2 r q) = ix2 r (colF q) := funext fun a => Fin.ext (by match a with | ⟨0, _⟩ => rfl | ⟨1, _⟩ => rfl)
  rw [val_main_v20_apply, val_main_v19_apply, val_main_cst_0_apply, val_main_v18_apply, val_main_v17_apply, val_main_cst_apply,
    val_main_v16_apply, val_main_v15_apply, val_main_v11_apply, e, preact_read]
  exact logistic_expansion _

/-- The input gate of row r at column q. -/
theorem input_read (r : Fin 4096) (q : Fin 1024) :
    val_main_v26 (F := Ideal) x0 x1 x3 x4 x5 x6 x7 x8 x9 x10 x11 x12 x13 x14 (ix2 r q) = Ideal.logistic (gate (fun k => x0 (ix2 r k)) (fun k => x1 (ix2 r k)) (refWxT x3 x6 x9 x12) (refWhT x5 x8 x11 x14) (refBias x4 x7 x10 x13) (colI q)) := by
  have e : idx_main_v12 (ix2 r q) = ix2 r (colI q) := funext fun a => Fin.ext (by match a with | ⟨0, _⟩ => rfl | ⟨1, _⟩ => rfl)
  rw [val_main_v26_apply, val_main_v25_apply, val_main_cst_2_apply, val_main_v24_apply, val_main_v23_apply, val_main_cst_1_apply,
    val_main_v22_apply, val_main_v21_apply, val_main_v12_apply, e, preact_read]
  exact logistic_expansion _

/-- The output gate of row r at column q. -/
theorem outgate_read (r : Fin 4096) (q : Fin 1024) :
    val_main_v32 (F := Ideal) x0 x1 x3 x4 x5 x6 x7 x8 x9 x10 x11 x12 x13 x14 (ix2 r q) = Ideal.logistic (gate (fun k => x0 (ix2 r k)) (fun k => x1 (ix2 r k)) (refWxT x3 x6 x9 x12) (refWhT x5 x8 x11 x14) (refBias x4 x7 x10 x13) (colO q)) := by
  have e : idx_main_v13 (ix2 r q) = ix2 r (colO q) := funext fun a => Fin.ext (by match a with | ⟨0, _⟩ => rfl | ⟨1, _⟩ => rfl)
  rw [val_main_v32_apply, val_main_v31_apply, val_main_cst_4_apply, val_main_v30_apply, val_main_v29_apply, val_main_cst_3_apply,
    val_main_v28_apply, val_main_v27_apply, val_main_v13_apply, e, preact_read]
  exact logistic_expansion _

/-- The new cell state at (r, q). -/
theorem cell_read (r : Fin 4096) (q : Fin 1024) :
    val_main_v36 (F := Ideal) x0 x1 x2 x3 x4 x5 x6 x7 x8 x9 x10 x11 x12 x13 x14 (ix2 r q) = cellRow (fun k => x0 (ix2 r k)) (fun k => x1 (ix2 r k)) (fun k => x2 (ix2 r k)) (refWxT x3 x6 x9 x12) (refWhT x5 x8 x11 x14) (refBias x4 x7 x10 x13) q := by
  have e : idx_main_v14 (ix2 r q) = ix2 r (colG q) := funext fun a => Fin.ext (by match a with | ⟨0, _⟩ => rfl | ⟨1, _⟩ => rfl)
  rw [val_main_v36_apply, val_main_v34_apply, val_main_v35_apply, val_main_v33_apply, val_main_v14_apply, e, preact_read, forget_read, input_read]
  rfl

/-- The new hidden state at (r, q). -/
theorem hidden_read (r : Fin 4096) (q : Fin 1024) :
    val_main_v38 (F := Ideal) x0 x1 x2 x3 x4 x5 x6 x7 x8 x9 x10 x11 x12 x13 x14 (ix2 r q) = hiddenRow (fun k => x0 (ix2 r k)) (fun k => x1 (ix2 r k)) (fun k => x2 (ix2 r k)) (refWxT x3 x6 x9 x12) (refWhT x5 x8 x11 x14) (refBias x4 x7 x10 x13) q := by
  rw [val_main_v38_apply, val_main_v37_apply, outgate_read, cell_read]
  rfl

/-- The output at (r, n). -/
theorem out_read (r : Fin 4096) (n : Fin 1024) :
    val_main_v43 (F := Ideal) x0 x1 x2 x3 x4 x5 x6 x7 x8 x9 x10 x11 x12 x13 x14 x15 x16 (ix2 r n) = outRow (fun k => x0 (ix2 r k)) (fun k => x1 (ix2 r k)) (fun k => x2 (ix2 r k)) (refWxT x3 x6 x9 x12) (refWhT x5 x8 x11 x14) (refBias x4 x7 x10 x13) (refWoT x15) (refOutBias x16) n := by
  have el : ∀ k, lidx_main_v40 (ix2 r n) k = ix2 r k := fun k => funext fun a => Fin.ext (by match a with | ⟨0, _⟩ => rfl | ⟨1, _⟩ => rfl)
  have er : ∀ k, ridx_main_v40 (ix2 r n) k = ix2 k n := fun k => funext fun a => Fin.ext (by match a with | ⟨0, _⟩ => rfl | ⟨1, _⟩ => rfl)
  have eb : idx_main_v41 (idx_main_v42 (ix2 r n)) = ix1 n := funext fun a => Fin.ext (by match a with | ⟨0, _⟩ => rfl)
  rw [val_main_v43_apply, val_main_v40_apply, val_main_v42_apply, val_main_v41_apply]
  simp only [el, er, eb, Ideal.addf_def]
  unfold outRow
  refine congrArg (· + x16 (ix1 n)) (Finset.sum_congr rfl fun k _ => ?_)
  rw [hidden_read]

end

end Cert.ReferenceIdeal.CellRead

end
-- ==== Proof.CellBridge.lean ====
/-
  The two programs prepare the same weights, so the reference's three results are the kernel's three matrices.

  Both programs stack the four gates' weights and biases with the same concatenations and transpose them the same
  way; the kernel then changes the weights' float format (the identity on the extended reals) and views each bias
  as a one-row matrix (entry (0, n) of the view is entry n). So the arrays the kernel's region finds are, entry by
  entry, the stages the reference contracts against, and with the two read lemmas (the reference's stages at an
  entry, the kernel's final arrays) both sides are the row-wise step of the same rows against the same weights.
-/
import proofs.«104912_j37245956391346_1_alg».proof.Proof.CellArrays
import proofs.«104912_j37245956391346_1_alg».proof.Proof.CellRefRead
import Idealize.ShloMosaic.Lib.StableHlo.Run

noncomputable section

namespace Cert.KernelIdeal.CellBridge

open Cert.KernelIdeal Cert.KernelIdeal.Gen Cert.KernelIdeal.Cell Cert.KernelIdeal.CellValue Cert.CellSpec
open Cert.ReferenceIdeal.Read Cert.ReferenceIdeal.CellRead
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The weights the region finds are the reference's stages -/

theorem wx_eq (c : Dev nD) : kWxT m c = refWxT (m ((c : Thread nD τ).loc main_arg3)) (m ((c : Thread nD τ).loc main_arg6)) (m ((c : Thread nD τ).loc main_arg9)) (m ((c : Thread nD τ).loc main_arg12)) := by
  show (V m c main_v4 : S1024x4096.Idx → EReal) = _
  dsimp only [V, hostOps0]
  after_results
  rfl

theorem wh_eq (c : Dev nD) : kWhT m c = refWhT (m ((c : Thread nD τ).loc main_arg5)) (m ((c : Thread nD τ).loc main_arg8)) (m ((c : Thread nD τ).loc main_arg11)) (m ((c : Thread nD τ).loc main_arg14)) := by
  show (V m c main_v6 : S1024x4096.Idx → EReal) = _
  dsimp only [V, hostOps0]
  after_results
  rfl

theorem wo_eq (c : Dev nD) : kWoT m c = refWoT (m ((c : Thread nD τ).loc main_arg15)) := by
  show (V m c main_v8 : S1024x1024.Idx → EReal) = _
  dsimp only [V, hostOps0]
  after_results
  rfl

theorem bias_eq (c : Dev nD) : kBias m c = refBias (m ((c : Thread nD τ).loc main_arg4)) (m ((c : Thread nD τ).loc main_arg7)) (m ((c : Thread nD τ).loc main_arg10)) (m ((c : Thread nD τ).loc main_arg13)) := by
  have e : (V m c main_v9 : S1x4096.Idx → EReal)
      = shapeCast S1x4096 (val_main_v2 (F := Ideal) (m ((c : Thread nD τ).loc main_arg4)) (m ((c : Thread nD τ).loc main_arg7)) (m ((c : Thread nD τ).loc main_arg10)) (m ((c : Thread nD τ).loc main_arg13))) shapeCasts_S4096_S1x4096 := by
    dsimp only [V, hostOps0]
    after_results
    rfl
  funext n
  show (V m c main_v9 : S1x4096.Idx → EReal) (ix2 (0 : Fin 1) n) = _
  rw [e]
  exact shapeCast_apply _ _ (ix2 (0 : Fin 1) n) (ix1 n) (by
    rw [Shape.rowMajor_val_two, Shape.rowMajor_val_one]; show n.val = 0 * 4096 + n.val; omega)

theorem outBias_eq (c : Dev nD) : kOutBias m c = refOutBias (m ((c : Thread nD τ).loc main_arg16)) := by
  have e : (V m c main_v10 : S1x1024.Idx → EReal) = shapeCast S1x1024 (m ((c : Thread nD τ).loc main_arg16)) shapeCasts_S1024_S1x1024 := by
    dsimp only [V, hostOps0]
    after_results
    rfl
  funext n
  show (V m c main_v10 : S1x1024.Idx → EReal) (ix2 (0 : Fin 1) n) = _
  rw [e]
  exact shapeCast_apply _ _ (ix2 (0 : Fin 1) n) (ix1 n) (by
    rw [Shape.rowMajor_val_two, Shape.rowMajor_val_one]; show n.val = 0 * 1024 + n.val; omega)

/-! ## The reference's results are the kernel's matrices -/

/-- The reference's new hidden state, on the kernel's arguments, is the kernel's. -/
theorem hidden_eq (c : Dev nD) :
    val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      = hiddenMat (V m c main_arg0) (V m c main_arg1) (V m c main_arg2) (kWxT m c) (kWhT m c) (kBias m c) := by
  funext i
  obtain ⟨r, q, rfl⟩ : ∃ (r : Fin 4096) (q : Fin 1024), i = ix2 r q := ⟨i 0, i 1, eq_ix2 i⟩
  rw [hidden_read, V_main_arg0, V_main_arg1, V_main_arg2, wx_eq, wh_eq, bias_eq]
  rfl

/-- The reference's new cell state, on the kernel's arguments, is the kernel's. -/
theorem cell_eq (c : Dev nD) :
    val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      = cellMat (V m c main_arg0) (V m c main_arg1) (V m c main_arg2) (kWxT m c) (kWhT m c) (kBias m c) := by
  funext i
  obtain ⟨r, q, rfl⟩ : ∃ (r : Fin 4096) (q : Fin 1024), i = ix2 r q := ⟨i 0, i 1, eq_ix2 i⟩
  rw [cell_read, V_main_arg0, V_main_arg1, V_main_arg2, wx_eq, wh_eq, bias_eq]
  rfl

/-- The reference's output, on the kernel's arguments, is the kernel's. -/
theorem out_eq (c : Dev nD) :
    val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      = outMat (V m c main_arg0) (V m c main_arg1) (V m c main_arg2) (kWxT m c) (kWhT m c) (kBias m c) (kWoT m c) (kOutBias m c) := by
  funext i
  obtain ⟨r, q, rfl⟩ : ∃ (r : Fin 4096) (q : Fin 1024), i = ix2 r q := ⟨i 0, i 1, eq_ix2 i⟩
  rw [out_read, V_main_arg0, V_main_arg1, V_main_arg2, wx_eq, wh_eq, bias_eq, wo_eq, outBias_eq]
  rfl

end Cert.KernelIdeal.CellBridge

end
-- ==== Proof.lean ====
/-
  One step of an LSTM cell as a batch-tiled kernel against its plain reference, over the extended reals.

  Both programs compute, for each of the 4096 rows of the batch,
      gate = x · WxT + h · WhT + b   (4096 columns: forget, input, output, candidate),
      c' = σ(gate_f) · c + σ(gate_i) · tanh(gate_g),   h' = σ(gate_o) · tanh(c'),   out = h' · WoT + bo,
  the kernel 128 rows at a time with the weights resident, the reference all rows at once with the logistic function
  spelt 1 / (1 + e^(-z)). On the extended reals a change of float format is the identity, a matrix product into a
  zero accumulator and the host's product are the same finite sum, and that spelling is the logistic function, so the
  two programs produce the same three matrices term for term: no arithmetic law and no finiteness of the inputs is
  used (CellSpec: the row-wise step; CellPayload: the kernel's stored values; CellArrays: the kernel's final
  arrays; CellRefRead: the reference's stages; CellBridge: the two programs prepare the same weights).
  The kernel programs' frames (CellFrame at the word level, CellFrameIdeal at the extended reals) are the run of
  the one region after the eleven host operations; the reference's frame is its run with the results dropped; the
  ideal pass rewrote nothing, so the idealization claim is trivial.
-/
import proofs.«104912_j37245956391346_1_alg».proof.Defs
import proofs.«104912_j37245956391346_1_alg».proof.Proof.Gen.Kernel
import proofs.«104912_j37245956391346_1_alg».proof.Proof.Gen.KernelIdeal
import proofs.«104912_j37245956391346_1_alg».proof.Proof.Gen.ReferenceIdeal
import proofs.«104912_j37245956391346_1_alg».proof.Proof.Gen.Pre_finite_inputs
import proofs.«104912_j37245956391346_1_alg».proof.Proof.Gen.ReferenceIdeal.Run
import proofs.«104912_j37245956391346_1_alg».proof.Proof.Gen.ReferenceIdeal.Read
import proofs.«104912_j37245956391346_1_alg».proof.Proof.CellFrame
import proofs.«104912_j37245956391346_1_alg».proof.Proof.CellFrameIdeal
import proofs.«104912_j37245956391346_1_alg».proof.Proof.CellBridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Cell.frame m ρ

/-- So does the idealized kernel program. -/
theorem frame_kernelIdeal : Cert.frame_KernelIdeal := fun m ρ _ => Cert.KernelIdeal.Cell.frame m ρ

/-- The reference is host operations only: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories agreeing on the seventeen arguments both programs end with the new hidden state, the new cell state
    and the output at the row-wise step of the arguments. -/
theorem algebraic : Cert.algebraic_KernelIdeal_ReferenceIdeal := by
  intro m ρ m' ρ' _ hagree
  refine ⟨fun c => Cert.CellSpec.hiddenMat (Cert.KernelIdeal.Cell.V m c Cert.KernelIdeal.main_arg0) (Cert.KernelIdeal.Cell.V m c Cert.KernelIdeal.main_arg1) (Cert.KernelIdeal.Cell.V m c Cert.KernelIdeal.main_arg2) (Cert.KernelIdeal.CellValue.kWxT m c) (Cert.KernelIdeal.CellValue.kWhT m c) (Cert.KernelIdeal.CellValue.kBias m c),
    fun c => Cert.CellSpec.cellMat (Cert.KernelIdeal.Cell.V m c Cert.KernelIdeal.main_arg0) (Cert.KernelIdeal.Cell.V m c Cert.KernelIdeal.main_arg1) (Cert.KernelIdeal.Cell.V m c Cert.KernelIdeal.main_arg2) (Cert.KernelIdeal.CellValue.kWxT m c) (Cert.KernelIdeal.CellValue.kWhT m c) (Cert.KernelIdeal.CellValue.kBias m c),
    fun c => Cert.CellSpec.outMat (Cert.KernelIdeal.Cell.V m c Cert.KernelIdeal.main_arg0) (Cert.KernelIdeal.Cell.V m c Cert.KernelIdeal.main_arg1) (Cert.KernelIdeal.Cell.V m c Cert.KernelIdeal.main_arg2) (Cert.KernelIdeal.CellValue.kWxT m c) (Cert.KernelIdeal.CellValue.kWhT m c) (Cert.KernelIdeal.CellValue.kBias m c) (Cert.KernelIdeal.CellValue.kWoT m c) (Cert.KernelIdeal.CellValue.kOutBias m c),
    Cert.KernelIdeal.CellValue.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12, g13, g14, g15, g16⟩ := hagree c
  refine ⟨(h c).1.trans ?_, (h c).2.1.trans ?_, (h c).2.2.1.trans ?_, (h c).2.2.2⟩
  · rw [Cert.ReferenceIdeal.Read.val_main_v38_eq, g0, g1, g2, g3, g4, g5, g6, g7, g8, g9, g10, g11, g12, g13, g14]
    exact Cert.KernelIdeal.CellBridge.hidden_eq m c
  · rw [Cert.ReferenceIdeal.Read.val_main_v36_eq, g0, g1, g2, g3, g4, g5, g6, g7, g8, g9, g10, g11, g12, g13, g14]
    exact Cert.KernelIdeal.CellBridge.cell_eq m c
  · rw [Cert.ReferenceIdeal.Read.val_main_v43_eq, g0, g1, g2, g3, g4, g5, g6, g7, g8, g9, g10, g11, g12, g13, g14, g15, g16]
    exact Cert.KernelIdeal.CellBridge.out_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
